-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S1x4096 : Shape := ⟨2, ![1, 4096]⟩
abbrev S2048x1024 : Shape := ⟨2, ![2048, 1024]⟩
abbrev S1x1024 : Shape := ⟨2, ![1, 1024]⟩
abbrev S1024 : Shape := ⟨1, ![1024]⟩
abbrev S4096 : Shape := ⟨1, ![4096]⟩

abbrev nBuf : Space → Nat
  | .hbm => 3
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  reduces_S2048x1024_S1024 : S2048x1024.Reduces [0] S1024
  shapeCasts_S1024_S1x1024 : S1024.ShapeCasts S1x1024
  shapeCasts_S1x4096_S4096 : S1x4096.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S4096 : Shape := ⟨1, ![4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel

variable [Facts₀]

class Facts : Prop extends Facts₀ where

variable [Facts]
-- ==== Proof.KernelTile.lean ====
/-
  What one grid point leaves in the output's staging buffer, as a value.

  The kernel's grid has 16 points: point `t` works on column tile `t / 4` (1024 columns) and row tile `t % 4`
  (2048 rows). Its body keeps a [1, 1024] block of running column sums: at the first row tile it stores zeros, and
  at every row tile it reads the block back, sums the input tile down its 2048 rows, and stores block plus sums.

  So the block a point leaves is ONE function of what the point before left and of the input tile: at a first row
  tile (the body's branch taken) it is the update applied to the zero block, at a later row tile the update applied
  to the block carried over. Read at lane `q` over the extended reals the update adds, to the carried entry, the
  plain sum of the tile's column `q`: a sum from the zero word is the sum, and the two changes of shape around it
  (a vector of 1024 sums laid out as one row) move no entry.
-/
import proofs.«131761_j46308337386059_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx

namespace Cert.KernelIdeal.TileValue

open Cert.KernelIdeal Cert.KernelIdeal.Gen

variable {F : FTy → Type} [FloatOps F]

/-- The offsets of every access of the body: the whole buffer from its origin. -/
theorem origin : (![0, 0] : Fin 2 → Nat) = fun _ => 0 := funext fun a => by fin_cases a <;> rfl

/-- A LATER row tile (the branch not taken): over a block holding `carried`, the body leaves the update of
    `carried` by the input tile `x`: its one store covers the block, and its loads read the whole buffers. -/
theorem later_tile (c : Dev nD) (i : grid0.Coords) (a1 : Memref sig .tc .vmem S2048x1024 .f32) (h1 : a1.IsWhole)
    (a2 : Memref sig .tc .vmem S1x1024 .f32) (h2 : a2.IsWhole) (hc : ¬cond0_0 i)
    (x : Vec F S2048x1024 .f32) (carried : Vec F S1x1024 .f32) :
    out0_B_1 c i a1 h1 a2 h2 hc x carried = k0_pay2 carried x := by
  unfold out0_B_1
  rw [View.read_writes_eq_canon _ _ _ (cover0_B_1 c i a1 h1 a2 h2 hc x carried)]
  unfold kernelRun0_B
  dsimp only
  sl_unfold_words
  rw [View.canon_unit_zero origin]
  simp only [View.readAt_eq_ld, h1.read_unread, h2.read_unread, View.ld_unit_zero (S := S2048x1024) origin,
    View.ld_unit_zero (S := S1x1024) origin]

/-- A FIRST row tile (the branch taken): the body stores the zero block, reads it back, and leaves the update of
    the zero block by the input tile `x`, whatever the buffer held before. -/
theorem first_tile (c : Dev nD) (i : grid0.Coords) (a1 : Memref sig .tc .vmem S2048x1024 .f32) (h1 : a1.IsWhole)
    (a2 : Memref sig .tc .vmem S1x1024 .f32) (h2 : a2.IsWhole) (hc : cond0_0 i) (x : Vec F S2048x1024 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x1024) origin, View.readCov_unit_zero (S := S1x1024) _ origin]
  simp only [View.readAt_eq_ld, h1.read_unread, View.ld_unit_zero (S := S2048x1024) origin,
    View.ld_unit_zero (S := S1x1024) origin]

/-- The lane reduction of the body, read over the extended reals at lane `q`: the plain sum of column `q` of the
    tile over its 2048 rows (the hypothesis on the starting word is typed as the printed program carries it). -/
theorem tile_sums_apply (x : FVec Ideal S2048x1024 .f32) (h : S2048x1024.Reduces [0] S1024)
    (hφ : FKind.Formats .f32) (hacc : (0x00000000#32 : BitVec 32) = 0x00000000#32) (q : Fin 1024) :
    multiReduction (F := Ideal) .add [0] S1024 x 0x00000000#32 h hφ hacc (ix1 q) = ∑ r : Fin 2048, x (ix2 r q) := by
  refine (Ideal.multiReduction_add_single x 0x00000000#32 h hφ hacc (ix1 q)).trans ?_
  exact Finset.sum_congr rfl fun r _ => congrArg x
    (funext fun a => Fin.ext (by match a with | ⟨0, _⟩ => rfl | ⟨1, _⟩ => rfl))

/-- THE UPDATE AT A LANE, over the extended reals: the carried entry plus the tile's column sum. -/
theorem update_apply (carried : FVec Ideal S1x1024 .f32) (x : FVec Ideal S2048x1024 .f32) (u : Fin 1) (q : Fin 1024) :
    k0_pay2 (F := Ideal) carried x (ix2 u q) = carried (ix2 u q) + ∑ r : Fin 2048, x (ix2 r q) := by
  unfold k0_pay2
  refine (addf_apply _ _ (ix2 u q)).trans ?_
  refine congrArg₂ (· + ·) (congrFun (shapeCast_self carried _) (ix2 u q)) ?_
  refine (shapeCast_a_1a_apply _ _ u q).trans ?_
  exact tile_sums_apply x _ _ _ q

/-- The zero block at a lane, over the extended reals: zero. -/
theorem zero_block_apply (u : Fin 1) (q : Fin 1024) : k0_pay1 (F := Ideal) (ix2 u q) = 0 := by
  unfold k0_pay1
  show Ideal.ofBits .f32 0x00000000#32 = 0
  exact Ideal.ofBits_zero_f32

end Cert.KernelIdeal.TileValue

end
-- ==== Proof.ColumnSumAlgebra.lean ====
/-
  The mathematics of a column sum taken tile by tile, over the extended reals.

  An array `x` of 8192 rows and 4096 columns is summed down each column. One side adds all 8192 entries of a column
  in one sum; the other cuts the rows into four tiles of 2048 rows, sums each tile, and adds the four tile sums one
  after the other onto a running value that starts at zero. Addition of extended reals is commutative and
  associative (with the convention that an infinity of each sign together give minus infinity), so a finite sum may be
  regrouped freely: the two sides are the same number, whatever the entries are, infinite ones included. No
  finiteness of the entries is used.

  To keep the regrouping free of bounds on indices, `x` is first read at any pair of naturals (zero outside the
  array); the tile sums and the running value are then sums over ranges of naturals.
-/
import Idealize.ShloMosaic.PureOps.Ideal
import Idealize.ShloMosaic.Lib.ValueIdx

noncomputable section

open scoped BigOperators

namespace Cert.ColumnSum

open Idealize.ShloMosaic Idealize.ShloMosaic.ValueIdx

/-- The array read at any row and column: its entry inside the array, zero outside. -/
def entry (x : (⟨2, ![8192, 4096]⟩ : Shape).Idx → EReal) (r c : ℕ) : EReal :=
  if h : r < 8192 ∧ c < 4096 then x (ix2 ⟨r, h.1⟩ ⟨c, h.2⟩) else 0

/-- Inside the array the totalized read is the entry. -/
theorem entry_of_lt (x : (⟨2, ![8192, 4096]⟩ : Shape).Idx → EReal) (r c : ℕ) (hr : r < 8192) (hc : c < 4096) :
    entry x r c = x (ix2 ⟨r, hr⟩ ⟨c, hc⟩) := dif_pos ⟨hr, hc⟩

/-- The sum of column `col` over the 2048 rows of row tile `k`: rows `2048 k` to `2048 k + 2047`. -/
def tileSum (x : (⟨2, ![8192, 4096]⟩ : Shape).Idx → EReal) (col k : ℕ) : EReal :=
  ∑ r ∈ Finset.range 2048, entry x (2048 * k + r) col

/-- The running value of column `col` after row tile `k`: zero plus the first tile's sum, then each later tile's
    sum added onto what the tile before left. -/
def running (x : (⟨2, ![8192, 4096]⟩ : Shape).Idx → EReal) (col : ℕ) : ℕ → EReal
  | 0 => 0 + tileSum x col 0
  | k + 1 => running x col k + tileSum x col (k + 1)

/-- The running value after tile `k` is the sum of the tile sums up to `k`. -/
theorem running_eq_sum (x : (⟨2, ![8192, 4096]⟩ : Shape).Idx → EReal) (col k : ℕ) :
    running x col k = ∑ i ∈ Finset.range (k + 1), tileSum x col i := by
  induction k with
  | zero => rw [running, zero_add, Finset.sum_range_one]
  | succ k ih => rw [running, ih, Finset.sum_range_succ _ (k + 1)]

/-- Consecutive stretches of `n` terms, `k` of them, summed stretch by stretch, are the first `n k` terms summed
    at once. -/
theorem sum_stretches (g : ℕ → EReal) (n k : ℕ) :
    ∑ i ∈ Finset.range k, ∑ r ∈ Finset.range n, g (n * i + r) = ∑ r ∈ Finset.range (n * k), g r := by
  induction k with
  | zero => rw [Finset.sum_range_zero, Nat.mul_zero, Finset.sum_range_zero]
  | succ k ih => rw [Finset.sum_range_succ, ih, Nat.mul_succ, Finset.sum_range_add]

/-- After the fourth tile the running value of a column is the sum of all its 8192 entries. -/
theorem running_three (x : (⟨2, ![8192, 4096]⟩ : Shape).Idx → EReal) (col : ℕ) (hc : col < 4096) :
    running x col 3 = ∑ r : Fin 8192, x (ix2 r ⟨col, hc⟩) := by
  rw [running_eq_sum]
  unfold tileSum
  rw [sum_stretches (fun r => entry x r col) 2048 4]
  show ∑ r ∈ Finset.range 8192, entry x r col = _
  rw [Finset.sum_range]
  exact Finset.sum_congr rfl fun r _ => entry_of_lt x r.val col r.isLt hc

end Cert.ColumnSum

end
-- ==== Proof.KernelColumns.lean ====
/-
  What the kernel's result holds: every column's plain sum.

  Point `t` of the 16-point grid reads the input tile of rows `2048 (t % 4)` onward and columns `1024 (t / 4)`
  onward, and keeps the running sums of those 1024 columns in the output's block. By induction on the point, after
  point `t` lane `q` of the block is the running value of column `1024 (t / 4) + q` after row tile `t % 4`: a
  first row tile starts it from zero, a later one adds its tile sum onto what the point before left. The block is
  written back after the last row tile of each column tile (the points with `t % 4 = 3`), where the running value is
  the whole column's sum; the four blocks written back tile the [1, 4096] result, so the result ends holding the
  column sums, and the reshape that follows the kernel only drops the unit axis.
-/
import proofs.«131761_j46308337386059_1_alg».proof.Proof.KernelTile
import proofs.«131761_j46308337386059_1_alg».proof.Proof.ColumnSumAlgebra
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.ColumnValue

open Cert.KernelIdeal Cert.KernelIdeal.Gen Cert.KernelIdeal.TileValue Cert.ColumnSum

variable (m : (ℓ : Loc nD τ sig) → Buf (Elt Ideal) ℓ) (ρ : Dev nD → PrngReg)

/-- The argument array as the kernel finds it, -/
abbrev xarr (c : Dev nD) : FVec Ideal S8192x4096 .f32 := V m c main_arg0
/-- and the input tile point `t` reads. -/
abbrev xtile (c : Dev nD) (t : Fin cfg0.N) : FVec Ideal S2048x1024 .f32 := iblk m c 0 t

/-- Where the two windows' blocks sit, decided over the grid: the input tile at row block `t % 4` and column block
    `t / 4`, the output block at column block `t / 4` of the one row. -/
theorem block_indices : ∀ t : Fin cfg0.N, win0_0.index t (0 : Fin 2) = t.val % 4 ∧ win0_0.index t (1 : Fin 2) = t.val / 4
    ∧ win0_1.index t (0 : Fin 2) = 0 ∧ win0_1.index t (1 : Fin 2) = t.val / 4 :=
  (by decide +kernel : ∀ t : Fin grid0.N, _)

/-- The input tile of point `t` at row `r`, lane `q`: the array at row `2048 (t % 4) + r`, column `1024 (t / 4) + q`. -/
theorem xtile_apply (c : Dev nD) (t : Fin cfg0.N) (r : Fin 2048) (q : Fin 1024) :
    xtile m c t (ix2 r q) = entry (xarr m c) (2048 * (t.val % 4) + r.val) (1024 * (t.val / 4) + q.val) := by
  have hN : t.val < 16 := lt_of_lt_of_eq t.isLt N_0
  obtain ⟨e0, e1, -, -⟩ := block_indices t
  rw [entry_of_lt _ _ _ (by omega) (by omega)]
  unfold xtile iblk
  rw [View.read_apply]
  show V m c main_arg0 _ = V m c main_arg0 _
  congr 1
  funext a
  apply Fin.ext
  match a with
  | ⟨0, _⟩ => show win0_0.index t (0 : Fin 2) * 2048 + 1 * r.val = 2048 * (t.val % 4) + r.val; omega
  | ⟨1, _⟩ => show win0_0.index t (1 : Fin 2) * 1024 + 1 * q.val = 1024 * (t.val / 4) + q.val; omega

/-- So the tile's column `q`, summed over its rows, is the tile sum of the array's column. -/
theorem xtile_sum (c : Dev nD) (t : Fin cfg0.N) (q : Fin 1024) :
    ∑ r : Fin 2048, xtile m c t (ix2 r q) = tileSum (xarr m c) (1024 * (t.val / 4) + q.val) (t.val % 4) := by
  unfold tileSum
  rw [Finset.sum_range]
  exact Finset.sum_congr rfl fun r _ => xtile_apply m c t r q

/-- At a first row tile the block ends, at lane `q`, at zero plus the tile's column sum. -/
theorem block_first (c : Dev nD) (t : Fin cfg0.N) (h0 : t.val % 4 = 0) (u : Fin 1) (q : Fin 1024) :
    outsAt0 m c t.val t.isLt (ix2 u q) = 0 + ∑ r : Fin 2048, xtile m c t (ix2 r q) := by
  rw [outsAt0_A m c t h0]
  refine (congrFun (first_tile (F := Ideal) c (grid0.coords t) (ms0_0 t) (hs0_0 t) (ms0_1 t) (hs0_1 t)
    ((hcond0_0 t).mpr h0) (iblk m c 0 t)) (ix2 u q)).trans ?_
  refine (update_apply (k0_pay1 (F := Ideal)) (iblk m c 0 t) u q).trans ?_
  rw [zero_block_apply]

/-- At a later row tile it ends at what the point before left plus the tile's column sum. -/
theorem block_later (c : Dev nD) (t : Fin cfg0.N) (h0 : ¬t.val % 4 = 0) (u : Fin 1) (q : Fin 1024) :
    outsAt0 m c t.val t.isLt (ix2 u q)
      = outsAt0 m c (t.val - 1) (Nat.lt_of_le_of_lt (Nat.sub_le _ _) t.isLt) (ix2 u q) + ∑ r : Fin 2048, xtile m c t (ix2 r q) := by
  rw [outsAt0_B m c t h0]
  refine (congrFun (later_tile (F := Ideal) c (grid0.coords t) (ms0_0 t) (hs0_0 t) (ms0_1 t) (hs0_1 t)
    (fun h => h0 ((hcond0_0 t).mp h)) (iblk m c 0 t)
    (outsAt0 m c (t.val - 1) (Nat.lt_of_le_of_lt (Nat.sub_le _ _) t.isLt))) (ix2 u q)).trans ?_
  exact update_apply _ (iblk m c 0 t) u q

/-- THE RUNNING VALUE: after point `n`, lane `q` of the block is the running value of column `1024 (n / 4) + q`
    after row tile `n % 4`. By induction on the point. -/
theorem block_running (c : Dev nD) : ∀ (n : ℕ) (h : n < cfg0.N) (u : Fin 1) (q : Fin 1024),
    outsAt0 m c n h (ix2 u q) = running (xarr m c) (1024 * (n / 4) + q.val) (n % 4) := by
  intro n
  induction n with
  | zero =>
    intro h u q
    refine (block_first m c ⟨0, h⟩ rfl u q).trans ?_
    rw [xtile_sum]
    rfl
  | succ k ih =>
    intro h u q
    by_cases h0 : (k + 1) % 4 = 0
    · refine (block_first m c ⟨k + 1, h⟩ h0 u q).trans ?_
      rw [xtile_sum]
      show 0 + tileSum (xarr m c) (1024 * ((k + 1) / 4) + q.val) ((k + 1) % 4) = _
      rw [h0]
      rfl
    · refine (block_later m c ⟨k + 1, h⟩ h0 u q).trans ?_
      rw [xtile_sum]
      show outsAt0 m c k _ (ix2 u q) + tileSum (xarr m c) (1024 * ((k + 1) / 4) + q.val) ((k + 1) % 4) = _
      rw [ih (Nat.lt_of_succ_lt h) u q]
      have e1 : (k + 1) / 4 = k / 4 := by omega
      have e2 : (k + 1) % 4 = k % 4 + 1 := by omega
      rw [e1, e2]
      rfl

/-- The column sums, laid out as the kernel's [1, 4096] result. -/
def columnSums (x : FVec Ideal S8192x4096 .f32) : FVec Ideal S1x4096 .f32 :=
  fun i => ∑ r : Fin 8192, x (ix2 r (⟨(i 1).val, idx2_lt1 i⟩ : Fin 4096))

/-- After the last row tile of a column tile, lane `j` of the block is the whole column's sum. -/
theorem block_last (c : Dev nD) (t : Fin cfg0.N) (h3 : t.val % 4 = 3) (j : S1x1024.Idx) (hc : 1024 * (t.val / 4) + (j 1).val < 4096) :
    outsAt0 m c t.val t.isLt j = ∑ r : Fin 8192, xarr m c (ix2 r ⟨1024 * (t.val / 4) + (j 1).val, hc⟩) := by
  obtain ⟨u, q, rfl⟩ : ∃ (u : Fin 1) (q : Fin 1024), j = ix2 u q := ⟨j 0, j 1, eq_ix2 j⟩
  rw [block_running m c t.val t.isLt u q, h3]
  exact running_three (xarr m c) _ hc

/-- WHAT A POINT WRITES BACK is its block of the column sums. -/
theorem flushed_eq (c : Dev nD) (t : Fin cfg0.N) (hf : (cfg0.win 1).flush t = true) :
    (dats m 0 c).flushed 1 t = ((cfg0.win 1).blk t).view.read (Elt Ideal) (columnSums (xarr m c)) := by
  have hN : t.val < 16 := lt_of_lt_of_eq t.isLt N_0
  have h3 : t.val % 4 = 3 := (flush0_1 t).mp hf
  obtain ⟨-, -, e2, e3⟩ := block_indices t
  show (cfg0.win 1).cut (grid0.coords t) ((dats m 0 c).after 1 t) = _
  rw [after0_1]
  funext j
  show outsAt0 m c t.val t.isLt j = columnSums (xarr m c) (((cfg0.win 1).blk t).view.emb j)
  have hj : (j 1).val < 1024 := (j 1).isLt
  rw [block_last m c t h3 j (by omega)]
  unfold columnSums
  refine Finset.sum_congr rfl fun r _ => congrArg (xarr m c) (congrArg (ix2 r) (Fin.ext ?_))
  show 1024 * (t.val / 4) + (j 1).val = win0_1.index t (1 : Fin 2) * 1024 + 1 * (j 1).val
  omega

/-- An index of the result is in point `t`'s block iff each coordinate is in the block's range on its axis. -/
theorem mem_block (t : Fin cfg0.N) (i : S1x4096.Idx) :
    i ∈ ((cfg0.win 1).blk t).view.set ↔ ∀ a : Fin 2, win0_1.index t a * S1x1024.size a ≤ (i a).val ∧ (i a).val < win0_1.index t a * S1x1024.size a + S1x1024.size a := by
  show i ∈ ((View.whole main_v0).slice (win0_1.rect t)).set ↔ _
  rw [View.set_slice_whole, Rect.mem_set_unit]
  exact Iff.rfl

/-- Column `i` lies in the block written back at the last row tile of its column tile: point `4 (i / 1024) + 3`. -/
theorem covered (i : S1x4096.Idx) : ∃ t : Fin cfg0.N, (cfg0.win 1).flush t = true ∧ i ∈ ((cfg0.win 1).blk t).view.set := by
  have hi0 : (i 0).val < 1 := (i 0).isLt
  have hi1 : (i 1).val < 4096 := (i 1).isLt
  have hlt : 4 * ((i 1).val / 1024) + 3 < cfg0.N := by rw [show cfg0.N = 16 from N_0]; omega
  refine ⟨⟨4 * ((i 1).val / 1024) + 3, hlt⟩, (flush0_1 _).mpr (by show (4 * ((i 1).val / 1024) + 3) % 4 = 3; omega), ?_⟩
  obtain ⟨-, -, e2, e3⟩ := block_indices ⟨4 * ((i 1).val / 1024) + 3, hlt⟩
  have e3' : win0_1.index ⟨4 * ((i 1).val / 1024) + 3, hlt⟩ (1 : Fin 2) = (i 1).val / 1024 := by
    rw [e3]; show (4 * ((i 1).val / 1024) + 3) / 4 = _; omega
  rw [mem_block]
  intro a
  match a with
  | ⟨0, _⟩ => show win0_1.index ⟨4 * ((i 1).val / 1024) + 3, hlt⟩ (0 : Fin 2) * 1 ≤ (i 0).val ∧ (i 0).val < win0_1.index ⟨4 * ((i 1).val / 1024) + 3, hlt⟩ (0 : Fin 2) * 1 + 1; omega
  | ⟨1, _⟩ => show win0_1.index ⟨4 * ((i 1).val / 1024) + 3, hlt⟩ (1 : Fin 2) * 1024 ≤ (i 1).val ∧ (i 1).val < win0_1.index ⟨4 * ((i 1).val / 1024) + 3, hlt⟩ (1 : Fin 2) * 1024 + 1024; omega

/-- THE RESULT OF THE KERNEL after the run: the column sums. -/
theorem final (c : Dev nD) : (dats m 0 c).arrAt 1 cfg0.N = columnSums (xarr m c) :=
  (dats m 0 c).arrAt_eq_of_cover 1 (columnSums (xarr m c)) (flushed_eq m c) covered

end Cert.KernelIdeal.ColumnValue

end
-- ==== Proof.KernelResult.lean ====
/-
  The kernel's run, read as a value. After the region the result array [1, 4096] holds the column sums; the one host
  operation that follows, a reshape to [4096], reads entry `i` of its result at `(0, i)` of that array. So the
  program's result is, at `i`, the plain sum of column `i` of the argument over all 8192 rows, and the argument
  is unchanged.
-/
import proofs.«131761_j46308337386059_1_alg».proof.Proof.KernelColumns

noncomputable section

open scoped BigOperators

open Idealize.ShloMosaic Idealize.ShloMosaic.TcCoe Idealize.SL.Sem Idealize.ShloMosaic.ValueIdx
open Idealize.ShloMosaic.Pipeline (Dat)

namespace Cert.KernelIdeal.ColumnValue

open Cert.KernelIdeal Cert.KernelIdeal.Gen Cert.KernelIdeal.TileValue Cert.ColumnSum

variable (m : (ℓ : Loc nD τ sig) → Buf (Elt Ideal) ℓ) (ρ : Dev nD → PrngReg)

/-- The column sums as a vector of 4096 entries: entry `i` is the sum of column `i` over all rows. -/
def columnVector (x : FVec Ideal S8192x4096 .f32) : FVec Ideal S4096 .f32 :=
  fun i => ∑ r : Fin 8192, x (ix2 r (⟨(i 0).val, (i 0).isLt⟩ : Fin 4096))

/-- Dropping the unit axis of the [1, 4096] column sums gives the vector. -/
theorem squeeze_columnSums (x : FVec Ideal S8192x4096 .f32) :
    shapeCast S4096 (columnSums x) shapeCasts_S1x4096_S4096 = columnVector x := by
  funext i
  obtain ⟨q, rfl⟩ : ∃ q : Fin 4096, i = ix1 q := ⟨i 0, eq_ix1 i⟩
  exact shapeCast_1a_a_apply (columnSums x) shapeCasts_S1x4096_S4096 q

/-- What the host operation after the region leaves in the program's result: the column vector of the argument as
    the region found it. -/
theorem tail_eq (c : Dev nD) :
    Pipeline.afterTail₀ cfgs (dats m) 0 (V0 m) [hostOps1] c main_v1 = columnVector (xarr m c) := by
  have e := (Pipeline.withArrays_arr spec0 launch0.win.arr_inj c (V0 m c)
    (fun w => (dats m 0 c).arrAt w (cfgs 0).N) 1).trans (final m c)
  unfold Pipeline.afterTail₀
  show StableHlo.after hostOps1 _ (Proc.devRef .tc main_v1) = _
  after_results
  refine Eq.trans ?_ (squeeze_columnSums (xarr m c))
  funext i
  show shapeCast S4096 (Pipeline.withArrays (cfgs 0).spec c (V0 m c) (fun w => (dats m 0 c).arrAt w (cfgs 0).N)
    (Proc.devRef .tc main_v0)) shapeCasts_S1x4096_S4096 i = _
  rw [e]

/-- THE RUN, READ: every weakly fair execution of the program terminates with its result at the column vector of
    the argument and the argument unchanged. -/
theorem run : θ_run defs (onTc (τ := τ) (main (F := Ideal))) ⟨m, fun _ => 0, ρ⟩ fun r => ∀ c : Dev nD,
      r.2.mem ((c.tc : Thread nD τ).loc main_v1) = columnVector (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (by decide)).trans ((tail_eq m c).trans (congrArg columnVector (V_main_arg0 m c))),
        ((h c).1 0).trans (((dats m 0 c).arrAt_in 0 rfl _).trans ((A_eq m c 0).trans (V_main_arg0 m c)))⟩)
    (run_main m ρ)

end Cert.KernelIdeal.ColumnValue

end
-- ==== Proof.RefColumnSum.lean ====
/-
  The reference at an index. jnp's `sum(x, axis=0)` is one host reduction with an add body from the constant zero:
  over the extended reals its entry at column `i` is zero plus the sum, over all 8192 rows `r`, of `x` at `(r, i)`,
  that is, the column's plain sum.
-/
import proofs.«131761_j46308337386059_1_alg».proof.Proof.Gen.ReferenceIdeal.Read
import Idealize.ShloMosaic.Lib.ValueIdx
import Idealize.ShloMosaic.PureOps.Ideal.Laws

noncomputable section

open scoped BigOperators

namespace Cert.ReferenceIdeal.ColumnValue

open Cert.ReferenceIdeal Cert.ReferenceIdeal.Gen Idealize.ShloMosaic Idealize.ShloMosaic.ValueIdx

/-- The reference's result at column `i`: the sum of that column of the argument. -/
theorem reduce_apply (x0 : (⟨S8192x4096, .f32⟩ : BufTy).Contents (Elt Ideal)) (i : Fin 4096) :
    Host.reduceAdd (F := Ideal) x0 (constant (F := Ideal) S_ .f32 0x00000000#32) reducesTo_S8192x4096_S4096_d0 h_S_ (ix1 i)
      = ∑ r : Fin 8192, x0 (ix2 r i) := by
  rw [Cert.ReferenceIdeal.Read.val_main_v0_eq, Cert.ReferenceIdeal.Read.val_main_v0_apply,
    Cert.ReferenceIdeal.Read.val_main_cst_apply]
  show Ideal.ofBits .f32 0x00000000#32 + _ = _
  rw [Ideal.ofBits_zero_f32, zero_add]
  exact Finset.sum_congr rfl fun k _ => congrArg x0
    (funext fun a => Fin.ext (by match a with | ⟨0, _⟩ => rfl | ⟨1, _⟩ => rfl))

end Cert.ReferenceIdeal.ColumnValue

end
-- ==== Proof.lean ====
/-
  The proof of `Cert.Claim`: a column sum accumulated over row tiles equals the column sum taken at once.

  The kernel sums a [8192, 4096] array down its columns: a grid of 4 column tiles by 4 row tiles, the [1, 1024] output
  block of a column tile zeroed at its first row tile and increased by each [2048, 1024] input tile's column sums; a
  reshape then drops the unit axis. The reference is one sum over the leading axis.

  Over the extended reals both end at the same vector: entry `i` is the sum of column `i` over all 8192 rows. For
  the kernel this is the running value after the fourth row tile (zero, then the four tile sums added in turn),
  which is the whole sum because a finite sum of extended reals may be regrouped; for the reference it is zero plus
  that sum. No property of the entries is needed, so the precondition is never opened.

  The three programs' runs (termination, no fault, the argument unchanged) are the generated frame runs for the two
  kernel programs and the generated run of the reference; the idealization rewrote nothing, so there is nothing to
  preserve.
-/
import proofs.«131761_j46308337386059_1_alg».proof.Defs
import proofs.«131761_j46308337386059_1_alg».proof.Proof.Gen.Kernel
import proofs.«131761_j46308337386059_1_alg».proof.Proof.Gen.Kernel.Frame
import proofs.«131761_j46308337386059_1_alg».proof.Proof.Gen.KernelIdeal
import proofs.«131761_j46308337386059_1_alg».proof.Proof.Gen.KernelIdeal.Frame
import proofs.«131761_j46308337386059_1_alg».proof.Proof.Gen.ReferenceIdeal
import proofs.«131761_j46308337386059_1_alg».proof.Proof.Gen.ReferenceIdeal.Run
import proofs.«131761_j46308337386059_1_alg».proof.Proof.Gen.Pre_finite_inputs
import proofs.«131761_j46308337386059_1_alg».proof.Proof.KernelResult
import proofs.«131761_j46308337386059_1_alg».proof.Proof.RefColumnSum

noncomputable section

namespace Cert.Proof

open Idealize.ShloMosaic Idealize.SL.Sem Idealize.ShloMosaic.ValueIdx

/-- The word-level kernel runs and leaves its argument unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The reference's result is the column vector of its argument: entry `i` is column `i`'s sum. -/
theorem reference_result (x : FVec Ideal Cert.ReferenceIdeal.S8192x4096 .f32) :
    Host.reduceAdd (F := Ideal) x (constant (F := Ideal) Cert.ReferenceIdeal.S_ .f32 0x00000000#32)
        Cert.ReferenceIdeal.Facts₀.reducesTo_S8192x4096_S4096_d0 Cert.ReferenceIdeal.Facts₀.h_S_
      = Cert.KernelIdeal.ColumnValue.columnVector x := by
  funext i
  obtain ⟨q, rfl⟩ : ∃ q : Fin 4096, i = ix1 q := ⟨i 0, eq_ix1 i⟩
  exact Cert.ReferenceIdeal.ColumnValue.reduce_apply x q

/-- From arguments that agree, both programs end with the column vector of the argument as their result. -/
theorem algebraic : Cert.algebraic_KernelIdeal_ReferenceIdeal := by
  intro m ρ m' ρ' _ hagree
  refine ⟨fun c => Cert.KernelIdeal.ColumnValue.columnVector
    (m ((c.tc : Thread Cert.KernelIdeal.nD Cert.KernelIdeal.τ).loc Cert.KernelIdeal.main_arg0)),
    Cert.KernelIdeal.ColumnValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact reference_result _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
